-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S1024x4096, .bf16⟩
  | .hbm, ⟨9, _⟩ => ⟨S1024x4x1024, .f32⟩
  | .hbm, ⟨10, _⟩ => ⟨S1024x4096, .f32⟩
  | .hbm, ⟨11, _⟩ => ⟨S1024x4096, .bf16⟩
  | .hbm, ⟨12, _⟩ => ⟨S1x4096, .f32⟩
  | .hbm, ⟨13, _⟩ => ⟨S16384x1024, .f32⟩
  | .hbm, ⟨14, _⟩ => ⟨S16384x1024, .f32⟩
  | .hbm, ⟨15, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S16384x1024.size a
  hwx0_6 : ∀ i : grid0.Coords, EltTy.bits .f32 = 32 ∨ (Rect.block (s := S16384x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S16384x4x1024, .f32⟩
  | .hbm, ⟨7, _⟩ => ⟨S16384x4x1024, .f32⟩
  | .hbm, ⟨8, _⟩ => ⟨S16384x4x1024, .f32⟩
  | .hbm, ⟨9, _⟩ => ⟨S1x4x1024, .f32⟩
  | .hbm, ⟨10, _⟩ => ⟨S16384x4x1024, .f32⟩
  | .hbm, ⟨11, _⟩ => ⟨S16384x4x1024, .f32⟩
  | .hbm, ⟨12, _⟩ => ⟨S16384x1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.LibReadBack.lean ====
/-
  A general fact about reading a buffer back after stores.

  Stores are recorded last first. If the store made last wrote the whole buffer (a rectangle of the buffer's full
  extents at offset zero, however the zero offsets are spelt), then a load of the whole buffer afterwards reads that
  store's payload, whatever the earlier stores wrote: the last store's rectangle holds every index, so it alone decides
  every entry. The one-store case is the library's; this is the same statement with any list of earlier stores behind
  the last one, which is what a scratch buffer overwritten several times and read back each time needs.
-/
import Idealize.ShloMosaic.Lib.Pipeline.Value

namespace Idealize.ShloMosaic.View

variable {Val : EltTy → Type} {S : Shape} {e : EltTy}

/-- A whole-buffer load after a whole-buffer store came last reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.Pieces.lean ====
/-
  What one grid step of the kernel leaves in each of its three output blocks, as pure functions of the step's six input
  blocks, at any float instance.

  The step keeps the stacked pre-activations of its 128 batch rows in a scratch block. It stores the input rows times
  the stacked input weights there, reads the block back, adds the hidden rows times the stacked recurrent weights and
  stores the sum, reads it back, adds the bias row spread over the 128 rows and stores that, and reads it back a last
  time. Every one of those stores writes the whole scratch block, so each read-back sees exactly the store before it
  and nothing of what the scratch held when the step began: the block the gates are cut from is
      `preBlock` = (rows * input weights + hidden rows * recurrent weights) + bias row,
  a function of the step's inputs alone. The three outputs are each written once, whole: the output gate, the new
  hidden state and the new cell state computed from slices of `preBlock` and the old cell-state block.
-/
import proofs.«169570_j87668872446416_1_alg».proof.Proof.Gen.KernelIdeal.Frame
import proofs.«169570_j87668872446416_1_alg».proof.Proof.LibReadBack

set_option maxRecDepth 16384

noncomputable section

namespace Cert.Lstm.Step

open Idealize.ShloMosaic Idealize.ShloMosaic.TcCoe Idealize.ShloMosaic.Tactic Idealize.SL.Sem
open Cert.KernelIdeal Cert.KernelIdeal.Gen

variable {F : FTy → Type} [FloatOps F]

/-- Zero offsets of a rank-two block, spelt as a literal pair or as the constant function. -/
theorem hz : (![0, 0] : Fin 2 → Nat) = fun _ => 0 := funext fun a => by fin_cases a <;> rfl

/-- The stacked pre-activations of one step: input rows `xb`, hidden rows `hb`, stacked weights `wx` and `wh`, bias row `bb`. -/
def preBlock (xb hb : Vec F S128x1024 .f32) (wx wh : Vec F S1024x4096 .bf16) (bb : Vec F S1x4096 .f32) : FVec F S128x4096 .f32 :=
  k0_pay6 (k0_pay5 hb (k0_pay4 xb wx) wh) bb

/-- The output-gate block of one step. -/
def gateBlock (xb hb : Vec F S128x1024 .f32) (wx wh : Vec F S1024x4096 .bf16) (bb : Vec F S1x4096 .f32) : FVec F S128x1024 .f32 :=
  k0_pay1 (preBlock xb hb wx wh bb)

/-- The new cell-state block of one step, from the old cell-state block `cb`. -/
def cellBlock (xb hb cb : Vec F S128x1024 .f32) (wx wh : Vec F S1024x4096 .bf16) (bb : Vec F S1x4096 .f32) : FVec F S128x1024 .f32 :=
  k0_pay2 (k0_pay7 (preBlock xb hb wx wh bb)) (k0_pay8 (preBlock xb hb wx wh bb)) (k0_pay9 (preBlock xb hb wx wh bb)) cb

/-- The new hidden-state block of one step. -/
def hiddenBlock (xb hb cb : Vec F S128x1024 .f32) (wx wh : Vec F S1024x4096 .bf16) (bb : Vec F S1x4096 .f32) : FVec F S128x1024 .f32 :=
  k0_pay3 (preBlock xb hb wx wh bb) (k0_pay7 (preBlock xb hb wx wh bb)) (k0_pay8 (preBlock xb hb wx wh bb)) (k0_pay9 (preBlock xb hb wx wh bb)) cb

/-- The first output's block after the step is the output gate. -/
theorem out6_eq (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (x0 x1 x2 : Vec F S128x1024 .f32) (x3 x4 : Vec F S1024x4096 .bf16) (x5 : Vec F S1x4096 .f32) :
    out0_A_6 c i arg1 harg1 arg2 harg2 arg3 harg3 arg4 harg4 arg5 harg5 arg6 harg6 arg7 harg7 arg8 harg8 arg9 harg9 arg10 harg10 x0 x1 x2 x3 x4 x5 = gateBlock x0 x1 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz]
  simp only [View.readAt_eq_ld, harg1.read_unread, harg2.read_unread, harg4.read_unread, harg5.read_unread, harg6.read_unread,
    View.ld_unit_zero (S := S128x1024) hz, View.ld_unit_zero (S := S1024x4096) hz, View.ld_unit_zero (S := S1x4096) hz,
    View.readCov_cons_unit_zero (S := S128x4096) _ hz, gateBlock, preBlock]

/-- The second output's block after the step is the new hidden state. -/
theorem out7_eq (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (x0 x1 x2 : Vec F S128x1024 .f32) (x3 x4 : Vec F S1024x4096 .bf16) (x5 : Vec F S1x4096 .f32) :
    out0_A_7 c i arg1 harg1 arg2 harg2 arg3 harg3 arg4 harg4 arg5 harg5 arg6 harg6 arg7 harg7 arg8 harg8 arg9 harg9 arg10 harg10 x0 x1 x2 x3 x4 x5 = hiddenBlock x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S128x1024) hz, View.ld_unit_zero (S := S1024x4096) hz, View.ld_unit_zero (S := S1x4096) hz,
    View.readCov_cons_unit_zero (S := S128x4096) _ hz, hiddenBlock, preBlock]

/-- The third output's block after the step is the new cell state. -/
theorem out8_eq (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x4096 .f32) (harg10 : arg10.IsWhole)
    (x0 x1 x2 : Vec F S128x1024 .f32) (x3 x4 : Vec F S1024x4096 .bf16) (x5 : Vec F S1x4096 .f32) :
    out0_A_8 c i arg1 harg1 arg2 harg2 arg3 harg3 arg4 harg4 arg5 harg5 arg6 harg6 arg7 harg7 arg8 harg8 arg9 harg9 arg10 harg10 x0 x1 x2 x3 x4 x5 = cellBlock x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S128x1024) hz, View.ld_unit_zero (S := S1024x4096) hz, View.ld_unit_zero (S := S1x4096) hz,
    View.readCov_cons_unit_zero (S := S128x4096) _ hz, cellBlock, preBlock]

end Cert.Lstm.Step

end
-- ==== Proof.Spec.lean ====
/-
  The LSTM cell that both programs compute, written once as functions of the six argument arrays and read index by
  index over the extended reals.

  For batch row `b`, gate `k` (0 input, 1 forget, 2 candidate, 3 output) and hidden unit `j`, the gate's
  pre-activation is the input row against row `j` of the gate's input weights, plus the hidden row against row `j` of
  its recurrent weights, plus the gate's bias:
      pre b k j = (sum over d of x[b,d] * Wi[k,j,d]  +  sum over d of h[b,d] * Wh[k,j,d])  +  bi[k,j].
  With sigma the logistic function, the cell's three results at (b, j) are
      o  = sigma (pre b 3 j)
      c' = sigma (pre b 1 j) * c[b,j] + sigma (pre b 0 j) * tanh (pre b 2 j)
      h' = o * tanh c'.
  The two sums are finite sums in a commutative monoid, so neither the order of their terms nor the way an
  implementation tiles them matters; no distributive law is used anywhere, so nothing here needs the inputs to be
  finite.

  Also here: the single-precision word 0x3F800000 is the real number one, and with it the quotient
  one / (one + exp (-a)), as a host program spells the logistic function, is the logistic function at every extended real.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Lstm

/-- Batch rows by features: the shape of `x`, `h`, `c` and of the three results. -/
abbrev SBatch : Shape := ⟨2, ![16384, 1024]⟩
/-- Gate, hidden unit, feature: the shape of both weight arrays. -/
abbrev SWeight : Shape := ⟨3, ![4, 1024, 1024]⟩
/-- Gate, hidden unit: the shape of the bias. -/
abbrev SBias : Shape := ⟨2, ![4, 1024]⟩

variable (x h c : FVec Ideal SBatch .f32) (Wi Wh : FVec Ideal SWeight .f32) (bi : FVec Ideal SBias .f32)

/-- The pre-activation of gate `k` for batch row `b` and hidden unit `j`. -/
def pre (b : Fin 16384) (k : Fin 4) (j : Fin 1024) : EReal :=
  ((∑ d : Fin 1024, x (ix2 b d) * Wi (ix3 k j d)) + (∑ d : Fin 1024, h (ix2 b d) * Wh (ix3 k j d))) + bi (ix2 k j)

/-- The output gate. -/
def gateO : FVec Ideal SBatch .f32 := fun i => Ideal.logistic (pre x h Wi Wh bi (i 0) 3 (i 1))

/-- The new cell state: the forget gate times the old state plus the input gate times the candidate. -/
def newC : FVec Ideal SBatch .f32 := fun i =>
  Ideal.logistic (pre x h Wi Wh bi (i 0) 1 (i 1)) * c i
    + Ideal.logistic (pre x h Wi Wh bi (i 0) 0 (i 1)) * Ideal.tanh (pre x h Wi Wh bi (i 0) 2 (i 1))

/-- The new hidden state: the output gate times the hyperbolic tangent of the new cell state. -/
def newH : FVec Ideal SBatch .f32 := fun i => gateO x h Wi Wh bi i * Ideal.tanh (newC x h c Wi Wh bi i)

/-- The single-precision word of 1.0 is the real number one. -/
theorem ofBits_one_f32 : Ideal.ofBits .f32 0x3F800000#32 = 1 := by
  simp [Ideal.ofBits, Ideal.ieee, -EReal.coe_mul]; norm_num

/-- The logistic function spelt as a quotient, with both ones given by their words, is the logistic function. -/
theorem logistic_of_quotient (a : EReal) :
    Ideal.div (Ideal.ofBits .f32 0x3F800000#32) (Ideal.ofBits .f32 0x3F800000#32 + Ideal.exp (-a)) = Ideal.logistic a := by
  rw [ofBits_one_f32]; rfl

end Cert.Lstm

end
-- ==== Proof.BlockValue.lean ====
/-
  One grid step's three output blocks, entry by entry over the extended reals, and their agreement with the
  specification once the step's input blocks are known to be pieces of the argument arrays.

  At the ideal instance the narrowing of the rows to sixteen bits is the identity, a matrix product into the zero
  accumulator read at (p, q) is the sum over the shared axis of left(p, d) * right(d, q), the bias row spread over the
  rows reads at (p, q) as bias(0, q), and a slice of width 1024 at column offset o reads at (p, j) as the block at
  (p, o + j). So entry (p, q) of the scratch block is
      (sum_d rows(p,d) * wx(d,q) + sum_d hidden(p,d) * wh(d,q)) + bias(0,q),
  and the gates are read from its four column bands: band k is columns k*1024 .. k*1024 + 1023.

  If the rows blocks hold rows `row p` of `x`, `h`, `c`; if wx(d, k*1024 + j) = Wi[k, j, d] and likewise for wh and
  Wh; and if bias(0, k*1024 + j) = bi[k, j], then band k of the scratch block at (p, j) is the specification's
  `pre (row p) k j`, and the three output blocks at (p, j) are the specification's results at (row p, j).
-/
import proofs.«169570_j87668872446416_1_alg».proof.Proof.Pieces
import proofs.«169570_j87668872446416_1_alg».proof.Proof.Spec
import Idealize.ShloMosaic.Lib.Pipeline.Value
import Idealize.ShloMosaic.Lib.ValueIdx
import Idealize.ShloMosaic.PureOps.Ideal.Laws

noncomputable section

namespace Cert.Lstm.Step

open Cert.KernelIdeal Cert.KernelIdeal.Gen Cert.Lstm
open Idealize.ShloMosaic Idealize.ShloMosaic.ValueIdx

/-! ## The matrix product's operand indices -/

theorem lhs_axis0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_axis1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_axis0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_axis1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The matrix product into the zero accumulator, read at (p, q): the sum over the shared axis. -/
theorem matmul_at (l : FVec Ideal S128x1024 .bf16) (r : FVec Ideal S1024x4096 .bf16) (p : Fin 128) (q : Fin 4096) :
    matmul dot_S128x1024_S1024x4096_S128x4096_1_0_0_1_n_n none l r (constant S128x4096 .f32 0x00000000#32) (ix2 p q)
      = ∑ k : Fin 1024, l (ix2 p k) * r (ix2 k q) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p q) ((ValueIdx.contrEquiv1 dot_S128x1024_S1024x4096_S128x4096_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S128x1024_S1024x4096_S128x4096_1_0_0_1_n_n.rhsIdx (ix2 p q) ((ValueIdx.contrEquiv1 dot_S128x1024_S1024x4096_S128x4096_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The bias row spread over the 128 rows, read at (p, q). -/
theorem bias_at (bb : FVec Ideal S1x4096 .f32) (p : Fin 128) (q : Fin 4096) :
    broadcastTo S128x4096 bb broadcasts_S1x4096_S128x4096 (ix2 p q) = bb (ix2 0 q) :=
  broadcastTo_apply bb broadcasts_S1x4096_S128x4096 (ix2 p q) (ix2 0 q) (fun a => match a with
    | ⟨0, _⟩ => by show (0 : Nat) = if (1 : Nat) = 1 then 0 else _; rw [if_pos rfl]
    | ⟨1, _⟩ => by show q.val = if (4096 : Nat) = 1 then 0 else q.val; rw [if_neg (by decide)])

/-- A band of 1024 columns at offset `off`, read at (p, j), is the block at (p, off + j). -/
theorem band_at (v : FVec Ideal S128x4096 .f32) (off : Nat) (hs : S128x4096.Slices ![0, off] S128x1024)
    (p : Fin 128) (j : Fin 1024) (q : Fin 4096) (hq : q.val = off + j.val) :
    extractStridedSlice S128x1024 ![0, off] v hs (ix2 p j) = v (ix2 p q) :=
  extractStridedSlice_apply ![0, off] v hs (ix2 p j) (ix2 p q) (fun a => match a with
    | ⟨0, _⟩ => by show p.val = 0 + p.val; omega
    | ⟨1, _⟩ => by show q.val = off + j.val; exact hq)

/-! ## The scratch block and the three output blocks, entry by entry -/

variable (xb hb cb : FVec Ideal S128x1024 .f32) (wx wh : FVec Ideal S1024x4096 .bf16) (bb : FVec Ideal S1x4096 .f32)

theorem preBlock_apply (p : Fin 128) (q : Fin 4096) :
    preBlock (F := Ideal) xb hb wx wh bb (ix2 p q)
      = ((∑ d : Fin 1024, xb (ix2 p d) * wx (ix2 d q)) + (∑ d : Fin 1024, hb (ix2 p d) * wh (ix2 d q))) + bb (ix2 0 q) := by
  unfold preBlock k0_pay6 k0_pay5 k0_pay4
  simp only [shapeCast_self]
  rw [addf_apply, addf_apply, bias_at, matmul_at, matmul_at]
  rfl

/-- Column `j` of band `k`. -/
def col (k : Fin 4) (j : Fin 1024) : Fin 4096 := ⟨k.val * 1024 + j.val, by have := k.isLt; have := j.isLt; omega⟩

theorem gateBlock_apply (p : Fin 128) (j : Fin 1024) :
    gateBlock (F := Ideal) xb hb wx wh bb (ix2 p j)
      = Ideal.logistic (preBlock (F := Ideal) xb hb wx wh bb (ix2 p (col 3 j))) :=
  congrArg Ideal.logistic (band_at (preBlock (F := Ideal) xb hb wx wh bb) 3072 slices_S128x4096_o0_3072_S128x1024 p j (col 3 j) rfl)

theorem cellBlock_apply (p : Fin 128) (j : Fin 1024) :
    cellBlock (F := Ideal) xb hb cb wx wh bb (ix2 p j)
      = Ideal.logistic (preBlock (F := Ideal) xb hb wx wh bb (ix2 p (col 1 j))) * cb (ix2 p j)
        + Ideal.logistic (preBlock (F := Ideal) xb hb wx wh bb (ix2 p (col 0 j)))
          * Ideal.tanh (preBlock (F := Ideal) xb hb wx wh bb (ix2 p (col 2 j))) := by
  rw [← band_at (preBlock (F := Ideal) xb hb wx wh bb) 1024 slices_S128x4096_o0_1024_S128x1024 p j (col 1 j) rfl,
    ← band_at (preBlock (F := Ideal) xb hb wx wh bb) 0 slices_S128x4096_o0_0_S128x1024 p j (col 0 j) rfl,
    ← band_at (preBlock (F := Ideal) xb hb wx wh bb) 2048 slices_S128x4096_o0_2048_S128x1024 p j (col 2 j) rfl]
  rfl

theorem hiddenBlock_apply (p : Fin 128) (j : Fin 1024) :
    hiddenBlock (F := Ideal) xb hb cb wx wh bb (ix2 p j)
      = gateBlock (F := Ideal) xb hb wx wh bb (ix2 p j) * Ideal.tanh (cellBlock (F := Ideal) xb hb cb wx wh bb (ix2 p j)) := rfl

/-! ## Against the specification -/

variable (x h c : FVec Ideal SBatch .f32) (Wi Wh : FVec Ideal SWeight .f32) (bi : FVec Ideal SBias .f32)
variable (row : Fin 128 → Fin 16384)
variable (hx : ∀ p d, xb (ix2 p d) = x (ix2 (row p) d)) (hh : ∀ p d, hb (ix2 p d) = h (ix2 (row p) d))
variable (hc : ∀ p j, cb (ix2 p j) = c (ix2 (row p) j))
variable (hwx : ∀ d k j, wx (ix2 d (col k j)) = Wi (ix3 k j d)) (hwh : ∀ d k j, wh (ix2 d (col k j)) = Wh (ix3 k j d))
variable (hbb : ∀ k j, bb (ix2 0 (col k j)) = bi (ix2 k j))

include hx hh hwx hwh hbb in
theorem band_eq_pre (p : Fin 128) (k : Fin 4) (j : Fin 1024) :
    preBlock (F := Ideal) xb hb wx wh bb (ix2 p (col k j)) = pre x h Wi Wh bi (row p) k j := by
  rw [preBlock_apply]
  unfold pre
  simp only [hx, hh, hwx, hwh, hbb]

include hx hh hwx hwh hbb in
theorem gateBlock_eq (p : Fin 128) (j : Fin 1024) :
    gateBlock (F := Ideal) xb hb wx wh bb (ix2 p j) = gateO x h Wi Wh bi (ix2 (row p) j) := by
  rw [gateBlock_apply, band_eq_pre xb hb wx wh bb x h Wi Wh bi row hx hh hwx hwh hbb]
  rfl

include hx hh hc hwx hwh hbb in
theorem cellBlock_eq (p : Fin 128) (j : Fin 1024) :
    cellBlock (F := Ideal) xb hb cb wx wh bb (ix2 p j) = newC x h c Wi Wh bi (ix2 (row p) j) := by
  rw [cellBlock_apply, band_eq_pre xb hb wx wh bb x h Wi Wh bi row hx hh hwx hwh hbb,
    band_eq_pre xb hb wx wh bb x h Wi Wh bi row hx hh hwx hwh hbb,
    band_eq_pre xb hb wx wh bb x h Wi Wh bi row hx hh hwx hwh hbb, hc]
  rfl

include hx hh hc hwx hwh hbb in
theorem hiddenBlock_eq (p : Fin 128) (j : Fin 1024) :
    hiddenBlock (F := Ideal) xb hb cb wx wh bb (ix2 p j) = newH x h c Wi Wh bi (ix2 (row p) j) := by
  rw [hiddenBlock_apply, gateBlock_eq xb hb wx wh bb x h Wi Wh bi row hx hh hwx hwh hbb,
    cellBlock_eq xb hb cb wx wh bb x h c Wi Wh bi row hx hh hc hwx hwh hbb]
  rfl

end Cert.Lstm.Step

end
-- ==== Proof.KernelValue.lean ====
/-
  From one grid step to the whole arrays: after the kernel's run its three result arrays hold the specification's
  output gate, new hidden state and new cell state of the six argument arrays.

  Before the grid runs, the program stacks each weight array Wi, Wh of shape (gate, unit, feature) into a matrix of shape
  (feature, gate * 1024 + unit): entry (d, k*1024 + j) of the stacked matrix is W[k, j, d] (the axes are permuted so that
  the feature comes first, then gate and unit are flattened together; the narrowing to sixteen bits is the identity over
  the extended reals). The bias of shape (gate, unit) is flattened to one row: entry (0, k*1024 + j) is bi[k, j].

  Grid step t (of 128) is handed rows 128 t .. 128 t + 127 of x, h and c, the two stacked matrices and the bias row
  whole, and writes rows 128 t .. 128 t + 127 of each result. With the step's blocks identified as those pieces of the
  arrays, the step's three output blocks are the specification's results at rows 128 t + p. Every row index r lies in
  step r / 128's block, so the 128 blocks cover each result array, and each array ends as the specification says.
-/
import proofs.«169570_j87668872446416_1_alg».proof.Proof.Gen.KernelIdeal.Value
import proofs.«169570_j87668872446416_1_alg».proof.Proof.BlockValue
import Idealize.ShloMosaic.Lib.StableHlo.Run

set_option maxRecDepth 16384

noncomputable section

namespace Cert.Lstm.Kernel

open Cert.KernelIdeal Cert.KernelIdeal.Gen Cert.Lstm Cert.Lstm.Step
open Idealize.ShloMosaic Idealize.ShloMosaic.TcCoe Idealize.ShloMosaic.ValueIdx Idealize.SL.Sem
open Idealize.ShloMosaic.Pipeline (Dat)

/-! ## The host prefix: the stacked weights and the flattened bias, entry by entry -/

/-- Entry (d, k*1024 + j) of a stacked weight matrix is W[k, j, d]. -/
theorem stacked_at (W : FVec Ideal S4x1024x1024 .f32) (d : Fin 1024) (k : Fin 4) (j : Fin 1024) :
    (truncf .bf16 (shapeCast S1024x4096 (transpose S1024x4x1024 [2, 0, 1] W transposes_S4x1024x1024_S1024x4x1024_2_0_1)
      shapeCasts_S1024x4x1024_S1024x4096) bitsLt_bf16_f32 : FVec Ideal S1024x4096 .bf16) (ix2 d (col k j)) = W (ix3 k j d) := by
  show shapeCast S1024x4096 (transpose S1024x4x1024 [2, 0, 1] W transposes_S4x1024x1024_S1024x4x1024_2_0_1)
      shapeCasts_S1024x4x1024_S1024x4096 (ix2 d (col k j)) = _
  rw [shapeCast_apply _ shapeCasts_S1024x4x1024_S1024x4096 (ix2 d (col k j)) (ix3 d k j) (by
    rewrite [Shape.rowMajor_val_three, Shape.rowMajor_val_two]
    show (d.val * 4 + k.val) * 1024 + j.val = d.val * 4096 + (k.val * 1024 + j.val)
    omega)]
  exact transpose_apply [2, 0, 1] W transposes_S4x1024x1024_S1024x4x1024_2_0_1 (ix3 d k j) (ix3 k j d) (fun b => match b with
    | ⟨0, _⟩ => rfl
    | ⟨1, _⟩ => rfl
    | ⟨2, _⟩ => rfl)

/-- Entry (0, k*1024 + j) of the flattened bias is bi[k, j]. -/
theorem flat_bias_at (B : FVec Ideal S4x1024 .f32) (k : Fin 4) (j : Fin 1024) :
    shapeCast S1x4096 B shapeCasts_S4x1024_S1x4096 (ix2 (0 : Fin 1) (col k j)) = B (ix2 k j) :=
  shapeCast_apply B shapeCasts_S4x1024_S1x4096 (ix2 (0 : Fin 1) (col k j)) (ix2 k j) (by
    rewrite [Shape.rowMajor_val_two, Shape.rowMajor_val_two]
    show k.val * 1024 + j.val = 0 * 4096 + (k.val * 1024 + j.val)
    omega)

variable (m : (ℓ : Loc nD τ sig) → Buf (Elt Ideal) ℓ) (ρ : Dev nD → PrngReg)

/-- The six argument arrays as the program is launched with them. -/
abbrev argX (c : Dev nD) : FVec Ideal SBatch .f32 := m ((c : Thread nD τ).loc main_arg0)
abbrev argH (c : Dev nD) : FVec Ideal SBatch .f32 := m ((c : Thread nD τ).loc main_arg1)
abbrev argC (c : Dev nD) : FVec Ideal SBatch .f32 := m ((c : Thread nD τ).loc main_arg2)
abbrev argWi (c : Dev nD) : FVec Ideal SWeight .f32 := m ((c : Thread nD τ).loc main_arg3)
abbrev argBi (c : Dev nD) : FVec Ideal SBias .f32 := m ((c : Thread nD τ).loc main_arg4)
abbrev argWh (c : Dev nD) : FVec Ideal SWeight .f32 := m ((c : Thread nD τ).loc main_arg5)

/-- What the grid finds in the stacked input-weight matrix. -/
theorem stackedWi_eq (c : Dev nD) : (V m c main_v2 : S1024x4096.Idx → EReal)
    = truncf .bf16 (shapeCast S1024x4096 (transpose S1024x4x1024 [2, 0, 1] (argWi m c) transposes_S4x1024x1024_S1024x4x1024_2_0_1)
      shapeCasts_S1024x4x1024_S1024x4096) bitsLt_bf16_f32 := by
  dsimp only [Gen.V, Gen.hostOps0]; after_results; rfl

/-- What the grid finds in the stacked recurrent-weight matrix. -/
theorem stackedWh_eq (c : Dev nD) : (V m c main_v5 : S1024x4096.Idx → EReal)
    = truncf .bf16 (shapeCast S1024x4096 (transpose S1024x4x1024 [2, 0, 1] (argWh m c) transposes_S4x1024x1024_S1024x4x1024_2_0_1)
      shapeCasts_S1024x4x1024_S1024x4096) bitsLt_bf16_f32 := by
  dsimp only [Gen.V, Gen.hostOps0]; after_results; rfl

/-- What the grid finds in the flattened bias. -/
theorem flatBias_eq (c : Dev nD) : (V m c main_v6 : S1x4096.Idx → EReal)
    = shapeCast S1x4096 (argBi m c) shapeCasts_S4x1024_S1x4096 := by
  dsimp only [Gen.V, Gen.hostOps0]; after_results; rfl

/-! ## The grid: which pieces of the arrays a step is handed -/

/-- The printed index maps, decided over the 128 steps: the row blocks of x, h, c and of the three results follow the step;
    the stacked weights and the bias row are the same whole block at every step. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of step `t`'s blocks is row 128 t + p of the arrays. -/
def rowOf (t : Fin cfg0.N) (p : Fin 128) : Fin 16384 :=
  ⟨t.val * 128 + p.val, by have h := t.isLt; have hN : cfg0.N = 128 := N_0; have := p.isLt; omega⟩

/-- Step `t`'s block of x holds rows 128 t + p of x. -/
theorem xblk_at (c : Dev nD) (t : Fin cfg0.N) (p : Fin 128) (d : Fin 1024) :
    (iblk m c 0 t : S128x1024.Idx → EReal) (ix2 p d) = argX m c (ix2 (rowOf t p) d) := by
  obtain ⟨e0, e1, -⟩ := idx_facts t
  show V m c main_arg0 (((cfg0.win 0).blk t).view.emb (ix2 p d)) = _
  rw [V_main_arg0]
  refine congrArg (argX m c) (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * d.val = d.val; omega

/-- Step `t`'s block of h holds rows 128 t + p of h. -/
theorem hblk_at (c : Dev nD) (t : Fin cfg0.N) (p : Fin 128) (d : Fin 1024) :
    (iblk m c 1 t : S128x1024.Idx → EReal) (ix2 p d) = argH m c (ix2 (rowOf t p) d) := by
  obtain ⟨-, -, e0, e1, -⟩ := idx_facts t
  show V m c main_arg1 (((cfg0.win 1).blk t).view.emb (ix2 p d)) = _
  rw [V_main_arg1]
  refine congrArg (argH m c) (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * d.val = d.val; omega

/-- Step `t`'s block of c holds rows 128 t + p of c. -/
theorem cblk_at (c : Dev nD) (t : Fin cfg0.N) (p : Fin 128) (j : Fin 1024) :
    (iblk m c 2 t : S128x1024.Idx → EReal) (ix2 p j) = argC m c (ix2 (rowOf t p) j) := by
  obtain ⟨-, -, -, -, e0, e1, -⟩ := idx_facts t
  show V m c main_arg2 (((cfg0.win 2).blk t).view.emb (ix2 p j)) = _
  rw [V_main_arg2]
  refine congrArg (argC m c) (funext fun a => Fin.ext ?_)
  match a with
  | ⟨0, _⟩ => show win0_2.index t (0 : Fin 2) * 128 + 1 * p.val = t.val * 128 + p.val; omega
  | ⟨1, _⟩ => show win0_2.index t (1 : Fin 2) * 1024 + 1 * j.val = j.val; omega

/-- Every step's block of the stacked input weights is the whole matrix: entry (d, k*1024 + j) is Wi[k, j, d]. -/
theorem wxblk_at (c : Dev nD) (t : Fin cfg0.N) (d : Fin 1024) (k : Fin 4) (j : Fin 1024) :
    (iblk m c 3 t : S1024x4096.Idx → EReal) (ix2 d (col k j)) = argWi m c (ix3 k j d) := by
  obtain ⟨-, -, -, -, -, -, e0, e1, -⟩ := idx_facts t
  have e : ((cfg0.win 3).blk t).view.emb (ix2 d (col k j)) = ix2 d (col k j) := funext fun a => Fin.ext (by
    match a with
    | ⟨0, _⟩ => show win0_3.index t (0 : Fin 2) * 1024 + 1 * d.val = d.val; omega
    | ⟨1, _⟩ => show win0_3.index t (1 : Fin 2) * 4096 + 1 * (col k j).val = (col k j).val; omega)
  show V m c main_v2 (((cfg0.win 3).blk t).view.emb (ix2 d (col k j))) = _
  rw [e, stackedWi_eq]
  exact stacked_at (argWi m c) d k j

/-- Every step's block of the stacked recurrent weights is the whole matrix: entry (d, k*1024 + j) is Wh[k, j, d]. -/
theorem whblk_at (c : Dev nD) (t : Fin cfg0.N) (d : Fin 1024) (k : Fin 4) (j : Fin 1024) :
    (iblk m c 4 t : S1024x4096.Idx → EReal) (ix2 d (col k j)) = argWh m c (ix3 k j d) := by
  obtain ⟨-, -, -, -, -, -, -, -, e0, e1, -⟩ := idx_facts t
  have e : ((cfg0.win 4).blk t).view.emb (ix2 d (col k j)) = ix2 d (col k j) := funext fun a => Fin.ext (by
    match a with
    | ⟨0, _⟩ => show win0_4.index t (0 : Fin 2) * 1024 + 1 * d.val = d.val; omega
    | ⟨1, _⟩ => show win0_4.index t (1 : Fin 2) * 4096 + 1 * (col k j).val = (col k j).val; omega)
  show V m c main_v5 (((cfg0.win 4).blk t).view.emb (ix2 d (col k j))) = _
  rw [e, stackedWh_eq]
  exact stacked_at (argWh m c) d k j

/-- Every step's block of the bias row is the whole row: entry (0, k*1024 + j) is bi[k, j]. -/
theorem bblk_at (c : Dev nD) (t : Fin cfg0.N) (k : Fin 4) (j : Fin 1024) :
    (iblk m c 5 t : S1x4096.Idx → EReal) (ix2 (0 : Fin 1) (col k j)) = argBi m c (ix2 k j) := by
  obtain ⟨-, -, -, -, -, -, -, -, -, -, e0, e1, -⟩ := idx_facts t
  have e : ((cfg0.win 5).blk t).view.emb (ix2 (0 : Fin 1) (col k j)) = ix2 (0 : Fin 1) (col k j) := funext fun a => Fin.ext (by
    match a with
    | ⟨0, _⟩ => show win0_5.index t (0 : Fin 2) * 1 + 1 * (0 : Fin 1).val = (0 : Fin 1).val; omega
    | ⟨1, _⟩ => show win0_5.index t (1 : Fin 2) * 4096 + 1 * (col k j).val = (col k j).val; omega)
  show V m c main_v6 (((cfg0.win 5).blk t).view.emb (ix2 (0 : Fin 1) (col k j))) = _
  rw [e, flatBias_eq]
  exact flat_bias_at (argBi m c) k j

/-! ## What each step writes back, and the arrays after the run -/

/-- The specification's three results of the launched arguments. -/
abbrev specO (c : Dev nD) : FVec Ideal SBatch .f32 := gateO (argX m c) (argH m c) (argWi m c) (argWh m c) (argBi m c)
abbrev specH (c : Dev nD) : FVec Ideal SBatch .f32 := newH (argX m c) (argH m c) (argC m c) (argWi m c) (argWh m c) (argBi m c)
abbrev specC (c : Dev nD) : FVec Ideal SBatch .f32 := newC (argX m c) (argH m c) (argC m c) (argWi m c) (argWh m c) (argBi m c)

/-- An entry (p, j) of step `t`'s block of result o lands on row 128 t + p, column j of the array. -/
theorem out_emb6 (t : Fin cfg0.N) (p : Fin 128) (j : Fin 1024) :
    ((cfg0.win 6).blk t).view.emb (ix2 p j) = ix2 (rowOf t p) j := funext fun a => Fin.ext (by
  have hf := idx_facts t
  match a with
  | ⟨0, _⟩ => show win0_6.index t (0 : Fin 2) * 128 + 1 * p.val = t.val * 128 + p.val; omega
  | ⟨1, _⟩ => show win0_6.index t (1 : Fin 2) * 1024 + 1 * j.val = j.val; omega)

/-- What step `t` writes back to result o is block `t` of the specification's array. -/
theorem flushed6_eq (c : Dev nD) (t : Fin cfg0.N) :
    (dats m 0 c).flushed 6 t = ((cfg0.win 6).blk t).view.read (Elt Ideal) (specO m c) := by
  refine (Cert.KernelIdeal.Value.flushed6_A m c t).trans ?_
  refine (congrArg ((cfg0.win 6).cut (grid0.coords t)) (out6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))).trans ?_
  funext y
  obtain ⟨p, j, rfl⟩ : ∃ (p : Fin 128) (j : Fin 1024), y = ix2 p j := ⟨y 0, y 1, eq_ix2 (n0 := 128) (n1 := 1024) y⟩
  show gateBlock (F := Ideal) (iblk m c 0 t) (iblk m c 1 t) (iblk m c 3 t) (iblk m c 4 t) (iblk m c 5 t) (ix2 p j) = specO m c (((cfg0.win 6).blk t).view.emb (ix2 p j))
  rw [out_emb6]
  exact gateBlock_eq (iblk m c 0 t) (iblk m c 1 t) (iblk m c 3 t) (iblk m c 4 t) (iblk m c 5 t) (argX m c) (argH m c) (argWi m c) (argWh m c) (argBi m c) (rowOf t) (xblk_at m c t) (hblk_at m c t) (wxblk_at m c t) (whblk_at m c t) (bblk_at m c t) p j

/-- An index of the array is in step `t`'s block iff each coordinate is in the block's range on its axis. -/
theorem mem_blk6 (t : Fin cfg0.N) (i : S16384x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v7_0).slice (win0_6.rect t)).set ↔ _
  rw [View.set_slice_whole, Rect.mem_set_unit]
  exact Iff.rfl

/-- Row r of result o is in step r / 128's block: the 128 blocks cover the array. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 128 := N_0
  obtain ⟨t, ht⟩ : ∃ t : Fin cfg0.N, t.val = (i 0).val / 128 := ⟨⟨(i 0).val / 128, by omega⟩, rfl⟩
  have hf := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- After the run, result o is the specification's array. -/
theorem final6 (c : Dev nD) : (dats m 0 c).arrAt 6 cfg0.N = specO m c :=
  (dats m 0 c).arrAt_eq_of_cover 6 (specO m c) (fun t _ => flushed6_eq m c t) cover6

/-- An entry (p, j) of step `t`'s block of result h' lands on row 128 t + p, column j of the array. -/
theorem out_emb7 (t : Fin cfg0.N) (p : Fin 128) (j : Fin 1024) :
    ((cfg0.win 7).blk t).view.emb (ix2 p j) = ix2 (rowOf t p) j := funext fun a => Fin.ext (by
  have hf := idx_facts t
  match a with
  | ⟨0, _⟩ => show win0_7.index t (0 : Fin 2) * 128 + 1 * p.val = t.val * 128 + p.val; omega
  | ⟨1, _⟩ => show win0_7.index t (1 : Fin 2) * 1024 + 1 * j.val = j.val; omega)

/-- What step `t` writes back to result h' is block `t` of the specification's array. -/
theorem flushed7_eq (c : Dev nD) (t : Fin cfg0.N) :
    (dats m 0 c).flushed 7 t = ((cfg0.win 7).blk t).view.read (Elt Ideal) (specH m c) := by
  refine (Cert.KernelIdeal.Value.flushed7_A m c t).trans ?_
  refine (congrArg ((cfg0.win 7).cut (grid0.coords t)) (out7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))).trans ?_
  funext y
  obtain ⟨p, j, rfl⟩ : ∃ (p : Fin 128) (j : Fin 1024), y = ix2 p j := ⟨y 0, y 1, eq_ix2 (n0 := 128) (n1 := 1024) y⟩
  show hiddenBlock (F := Ideal) (iblk m c 0 t) (iblk m c 1 t) (iblk m c 2 t) (iblk m c 3 t) (iblk m c 4 t) (iblk m c 5 t) (ix2 p j) = specH m c (((cfg0.win 7).blk t).view.emb (ix2 p j))
  rw [out_emb7]
  exact hiddenBlock_eq (iblk m c 0 t) (iblk m c 1 t) (iblk m c 2 t) (iblk m c 3 t) (iblk m c 4 t) (iblk m c 5 t) (argX m c) (argH m c) (argC m c) (argWi m c) (argWh m c) (argBi m c) (rowOf t) (xblk_at m c t) (hblk_at m c t) (cblk_at m c t) (wxblk_at m c t) (whblk_at m c t) (bblk_at m c t) p j

/-- An index of the array is in step `t`'s block iff each coordinate is in the block's range on its axis. -/
theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v7_1).slice (win0_7.rect t)).set ↔ _
  rw [View.set_slice_whole, Rect.mem_set_unit]
  exact Iff.rfl

/-- Row r of result h' is in step r / 128's block: the 128 blocks cover the array. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 128 := N_0
  obtain ⟨t, ht⟩ : ∃ t : Fin cfg0.N, t.val = (i 0).val / 128 := ⟨⟨(i 0).val / 128, by omega⟩, rfl⟩
  have hf := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- After the run, result h' is the specification's array. -/
theorem final7 (c : Dev nD) : (dats m 0 c).arrAt 7 cfg0.N = specH m c :=
  (dats m 0 c).arrAt_eq_of_cover 7 (specH m c) (fun t _ => flushed7_eq m c t) cover7

/-- An entry (p, j) of step `t`'s block of result c' lands on row 128 t + p, column j of the array. -/
theorem out_emb8 (t : Fin cfg0.N) (p : Fin 128) (j : Fin 1024) :
    ((cfg0.win 8).blk t).view.emb (ix2 p j) = ix2 (rowOf t p) j := funext fun a => Fin.ext (by
  have hf := idx_facts t
  match a with
  | ⟨0, _⟩ => show win0_8.index t (0 : Fin 2) * 128 + 1 * p.val = t.val * 128 + p.val; omega
  | ⟨1, _⟩ => show win0_8.index t (1 : Fin 2) * 1024 + 1 * j.val = j.val; omega)

/-- What step `t` writes back to result c' is block `t` of the specification's array. -/
theorem flushed8_eq (c : Dev nD) (t : Fin cfg0.N) :
    (dats m 0 c).flushed 8 t = ((cfg0.win 8).blk t).view.read (Elt Ideal) (specC m c) := by
  refine (Cert.KernelIdeal.Value.flushed8_A m c t).trans ?_
  refine (congrArg ((cfg0.win 8).cut (grid0.coords t)) (out8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t))).trans ?_
  funext y
  obtain ⟨p, j, rfl⟩ : ∃ (p : Fin 128) (j : Fin 1024), y = ix2 p j := ⟨y 0, y 1, eq_ix2 (n0 := 128) (n1 := 1024) y⟩
  show cellBlock (F := Ideal) (iblk m c 0 t) (iblk m c 1 t) (iblk m c 2 t) (iblk m c 3 t) (iblk m c 4 t) (iblk m c 5 t) (ix2 p j) = specC m c (((cfg0.win 8).blk t).view.emb (ix2 p j))
  rw [out_emb8]
  exact cellBlock_eq (iblk m c 0 t) (iblk m c 1 t) (iblk m c 2 t) (iblk m c 3 t) (iblk m c 4 t) (iblk m c 5 t) (argX m c) (argH m c) (argC m c) (argWi m c) (argWh m c) (argBi m c) (rowOf t) (xblk_at m c t) (hblk_at m c t) (cblk_at m c t) (wxblk_at m c t) (whblk_at m c t) (bblk_at m c t) p j

/-- An index of the array is in step `t`'s block iff each coordinate is in the block's range on its axis. -/
theorem mem_blk8 (t : Fin cfg0.N) (i : S16384x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v7_2).slice (win0_8.rect t)).set ↔ _
  rw [View.set_slice_whole, Rect.mem_set_unit]
  exact Iff.rfl

/-- Row r of result c' is in step r / 128's block: the 128 blocks cover the array. -/
theorem cover8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 128 := N_0
  obtain ⟨t, ht⟩ : ∃ t : Fin cfg0.N, t.val = (i 0).val / 128 := ⟨⟨(i 0).val / 128, by omega⟩, rfl⟩
  have hf := idx_facts t
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 1024 ≤ (i 1).val ∧ (i 1).val < win0_8.index t (1 : Fin 2) * 1024 + 1024; omega

/-- After the run, result c' is the specification's array. -/
theorem final8 (c : Dev nD) : (dats m 0 c).arrAt 8 cfg0.N = specC m c :=
  (dats m 0 c).arrAt_eq_of_cover 8 (specC m c) (fun t _ => flushed8_eq m c t) cover8

/-! ## The run, read -/

/-- Every weakly fair execution of the idealized kernel terminates with its three result arrays at the specification's
    output gate, new hidden state and new cell state of the launched arguments, and the arguments unchanged. -/
theorem run : θ_run defs (onTc (τ := τ) (main (F := Ideal))) ⟨m, fun _ => 0, ρ⟩ fun r => ∀ c : Dev nD,
      r.2.mem ((c : Thread nD τ).loc main_v7_0) = specO m c
      ∧ r.2.mem ((c : Thread nD τ).loc main_v7_1) = specH m c
      ∧ r.2.mem ((c : Thread nD τ).loc main_v7_2) = specC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c),
      (h c).2.2.1.trans (final8 m c), (h c).2.2.2⟩)
    (Cert.KernelIdeal.Value.run_blocks m ρ)

end Cert.Lstm.Kernel

end
-- ==== Proof.RefValue.lean ====
/-
  The reference program computes the LSTM cell of the specification.

  The reference forms all four gates' pre-activations at once as an array indexed (batch row, gate, hidden unit): two
  contractions over the feature axis, added, plus the bias spread over the batch axis. Entry (b, g, j) of that array
  is therefore `pre b g j` on the nose: same two sums, same association, same bias entry. Each gate is then a slice
  of thickness one along the gate axis, flattened back to (batch row, hidden unit); the flattening sends (b, j) to
  (b, 0, j) of the slice, which is entry (b, g, j) of the big array. The logistic function is spelt
  1 / (1 + exp (-a)), which is the logistic function at every extended real; the hyperbolic tangent is the
  same function on both sides. The three results are then the specification's formulas, term for term.
-/
import proofs.«169570_j87668872446416_1_alg».proof.Proof.Gen.ReferenceIdeal.Read
import proofs.«169570_j87668872446416_1_alg».proof.Proof.Spec

noncomputable section

namespace Cert.Lstm.Ref

open Cert.ReferenceIdeal Cert.ReferenceIdeal.Read Cert.Lstm
open Idealize.ShloMosaic Idealize.ShloMosaic.ValueIdx

variable (x h c : FVec Ideal SBatch .f32) (Wi Wh : FVec Ideal SWeight .f32) (bi : FVec Ideal SBias .f32)

/-- Entry (b, g, j) of the reference's array of pre-activations is gate g's pre-activation for row b and unit j. -/
theorem stacked_pre (b : Fin 16384) (g : Fin 4) (j : Fin 1024) :
    val_main_v5 (F := Ideal) x h Wi bi Wh (ix3 b g j) = pre x h Wi Wh bi b g j := by
  have el0 : ∀ k : Fin 1024, lidx_main_v0 (ix3 b g j) k = ix2 b k := fun k =>
    funext fun a => by match a with | ⟨0, _⟩ => rfl | ⟨1, _⟩ => rfl
  have er0 : ∀ k : Fin 1024, ridx_main_v0 (ix3 b g j) k = ix3 g j k := fun k =>
    funext fun a => by match a with | ⟨0, _⟩ => rfl | ⟨1, _⟩ => rfl | ⟨2, _⟩ => rfl
  have el1 : ∀ k : Fin 1024, lidx_main_v1 (ix3 b g j) k = ix2 b k := fun k =>
    funext fun a => by match a with | ⟨0, _⟩ => rfl | ⟨1, _⟩ => rfl
  have er1 : ∀ k : Fin 1024, ridx_main_v1 (ix3 b g j) k = ix3 g j k := fun k =>
    funext fun a => by match a with | ⟨0, _⟩ => rfl | ⟨1, _⟩ => rfl | ⟨2, _⟩ => rfl
  have eb : idx_main_v3 (idx_main_v4 (ix3 b g j)) = ix2 g j :=
    funext fun a => by match a with | ⟨0, _⟩ => rfl | ⟨1, _⟩ => rfl
  rw [val_main_v5_apply, val_main_v2_apply, val_main_v0_apply, val_main_v1_apply, val_main_v4_apply, val_main_v3_apply, eb]
  simp only [el0, er0, el1, er1]
  rfl

/-- A gate's slice, flattened, read at (b, j), is entry (b, g, j) of the array of pre-activations: gate 0. -/
theorem gate0_pre (i : SBatch.Idx) : val_main_v7 (F := Ideal) x h Wi bi Wh i = pre x h Wi Wh bi (i 0) 0 (i 1) := by
  have e : idx_main_v6 (idx_main_v7 i) = ix3 (n0 := 16384) (n1 := 4) (n2 := 1024) (i 0) (0 : Fin 4) (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v7_apply, val_main_v6_apply, e]
  exact stacked_pre x h Wi Wh bi (i 0) 0 (i 1)

/-- Gate 1. -/
theorem gate1_pre (i : SBatch.Idx) : val_main_v15 (F := Ideal) x h Wi bi Wh i = pre x h Wi Wh bi (i 0) 1 (i 1) := by
  have e : idx_main_v14 (idx_main_v15 i) = ix3 (n0 := 16384) (n1 := 4) (n2 := 1024) (i 0) (1 : Fin 4) (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v15_apply, val_main_v14_apply, e]
  exact stacked_pre x h Wi Wh bi (i 0) 1 (i 1)

/-- Gate 2. -/
theorem gate2_pre (i : SBatch.Idx) : val_main_v23 (F := Ideal) x h Wi bi Wh i = pre x h Wi Wh bi (i 0) 2 (i 1) := by
  have e : idx_main_v22 (idx_main_v23 i) = ix3 (n0 := 16384) (n1 := 4) (n2 := 1024) (i 0) (2 : Fin 4) (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v23_apply, val_main_v22_apply, e]
  exact stacked_pre x h Wi Wh bi (i 0) 2 (i 1)

/-- Gate 3. -/
theorem gate3_pre (i : SBatch.Idx) : val_main_v26 (F := Ideal) x h Wi bi Wh i = pre x h Wi Wh bi (i 0) 3 (i 1) := by
  have e : idx_main_v25 (idx_main_v26 i) = ix3 (n0 := 16384) (n1 := 4) (n2 := 1024) (i 0) (3 : Fin 4) (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v26_apply, val_main_v25_apply, e]
  exact stacked_pre x h Wi Wh bi (i 0) 3 (i 1)

/-- The input gate: the quotient spelling of the logistic function of gate 0's pre-activation. -/
theorem gateI_apply (i : SBatch.Idx) :
    val_main_v13 (F := Ideal) x h Wi bi Wh i = Ideal.logistic (pre x h Wi Wh bi (i 0) 0 (i 1)) := by
  rw [val_main_v13_apply, val_main_v12_apply, val_main_cst_0_apply, val_main_v11_apply, val_main_v10_apply,
    val_main_cst_apply, val_main_v9_apply, val_main_v8_apply, gate0_pre]
  exact logistic_of_quotient _

/-- The forget gate. -/
theorem gateF_apply (i : SBatch.Idx) :
    val_main_v21 (F := Ideal) x h Wi bi Wh i = Ideal.logistic (pre x h Wi Wh bi (i 0) 1 (i 1)) := by
  rw [val_main_v21_apply, val_main_v20_apply, val_main_cst_2_apply, val_main_v19_apply, val_main_v18_apply,
    val_main_cst_1_apply, val_main_v17_apply, val_main_v16_apply, gate1_pre]
  exact logistic_of_quotient _

/-- The candidate. -/
theorem cand_apply (i : SBatch.Idx) :
    val_main_v24 (F := Ideal) x h Wi bi Wh i = Ideal.tanh (pre x h Wi Wh bi (i 0) 2 (i 1)) := by
  rw [val_main_v24_apply, gate2_pre]
  rfl

/-- The output gate. -/
theorem gateO_apply (i : SBatch.Idx) :
    val_main_v32 (F := Ideal) x h Wi bi Wh i = Ideal.logistic (pre x h Wi Wh bi (i 0) 3 (i 1)) := by
  rw [val_main_v32_apply, val_main_v31_apply, val_main_cst_4_apply, val_main_v30_apply, val_main_v29_apply,
    val_main_cst_3_apply, val_main_v28_apply, val_main_v27_apply, gate3_pre]
  exact logistic_of_quotient _

/-- The reference's first result is the output gate. -/
theorem result_o : val_main_v32 (F := Ideal) x h Wi bi Wh = gateO x h Wi Wh bi :=
  funext fun i => gateO_apply x h Wi Wh bi i

/-- The reference's third result is the new cell state. -/
theorem result_c : val_main_v35 (F := Ideal) x h c Wi bi Wh = newC x h c Wi Wh bi := by
  funext i
  rw [val_main_v35_apply, val_main_v33_apply, val_main_v34_apply, gateF_apply, gateI_apply, cand_apply]
  rfl

/-- The reference's second result is the new hidden state. -/
theorem result_h : val_main_v37 (F := Ideal) x h c Wi bi Wh = newH x h c Wi Wh bi := by
  funext i
  rw [val_main_v37_apply, val_main_v36_apply, gateO_apply, congrFun (result_c x h c Wi Wh bi) i]
  rfl

end Cert.Lstm.Ref

end
-- ==== Proof.lean ====
/-
  An LSTM cell, computed two ways, is one function of its six arguments over the extended reals.

  Arguments: x, h, c of shape (16384, 1024); input and recurrent weights Wi, Wh of shape (4, 1024, 1024), indexed
  (gate, hidden unit, feature); a bias bi of shape (4, 1024). For batch row b, gate k and unit j let
      pre b k j = (sum_d x[b,d] * Wi[k,j,d] + sum_d h[b,d] * Wh[k,j,d]) + bi[k,j].
  The results are o = sigma (pre b 3 j), c' = sigma (pre b 1 j) * c[b,j] + sigma (pre b 0 j) * tanh (pre b 2 j) and
  h' = o * tanh c', with sigma the logistic function (Proof/Spec.lean).

  The kernel first stacks each weight array into a matrix of shape (feature, 4 * 1024), so that one matrix product of
  128 batch rows against it yields all four gates of those rows side by side; it runs 128 grid steps of 128 rows each.
  A step accumulates rows * stacked Wi, then + rows of h * stacked Wh, then + the bias row, in a scratch block it
  overwrites whole each time, cuts the four gate bands out of it, and writes its 128 rows of o, h' and c'
  (Proof/Pieces.lean, Proof/BlockValue.lean, Proof/KernelValue.lean). The reference contracts x and h against the
  weight arrays directly into an array indexed (row, gate, unit), adds the bias, slices the four gates out, and spells
  sigma as 1 / (1 + exp (-a)) (Proof/RefValue.lean).

  Over the extended reals the narrowing of the matrix operands to sixteen bits is the identity, a matrix product into
  a zero accumulator is the finite sum it stands for, and 1 / (1 + exp (-a)) is sigma at every extended real. Both
  programs therefore compute, entry by entry, literally the same expression; the only law used between them is that
  a finite sum may be re-indexed along a bijection. No distributivity and no cancellation occur, so the equality holds
  at infinite inputs too and the finiteness precondition is never opened.

  The three frames: the two kernel programs' are the generated frame theorems; the reference's is its run with the
  results dropped. The idealization rewrote nothing, so there is nothing to preserve.
-/
import proofs.«169570_j87668872446416_1_alg».proof.Defs
import proofs.«169570_j87668872446416_1_alg».proof.Proof.Gen.Kernel
import proofs.«169570_j87668872446416_1_alg».proof.Proof.Gen.Kernel.Skeleton
import proofs.«169570_j87668872446416_1_alg».proof.Proof.Gen.Kernel.Launch
import proofs.«169570_j87668872446416_1_alg».proof.Proof.Gen.Kernel.Points
import proofs.«169570_j87668872446416_1_alg».proof.Proof.Gen.Kernel.Frame
import proofs.«169570_j87668872446416_1_alg».proof.Proof.Gen.KernelIdeal
import proofs.«169570_j87668872446416_1_alg».proof.Proof.Gen.KernelIdeal.Skeleton
import proofs.«169570_j87668872446416_1_alg».proof.Proof.Gen.KernelIdeal.Launch
import proofs.«169570_j87668872446416_1_alg».proof.Proof.Gen.KernelIdeal.Points
import proofs.«169570_j87668872446416_1_alg».proof.Proof.Gen.KernelIdeal.Frame
import proofs.«169570_j87668872446416_1_alg».proof.Proof.Gen.ReferenceIdeal
import proofs.«169570_j87668872446416_1_alg».proof.Proof.Gen.Pre_finite_inputs
import proofs.«169570_j87668872446416_1_alg».proof.Proof.Gen.KernelIdeal.Value
import proofs.«169570_j87668872446416_1_alg».proof.Proof.Gen.ReferenceIdeal.Run
import proofs.«169570_j87668872446416_1_alg».proof.Proof.Gen.ReferenceIdeal.Read
import proofs.«169570_j87668872446416_1_alg».proof.Proof.KernelValue
import proofs.«169570_j87668872446416_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with what it says of the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the specification's three arrays of their arguments, and the arguments agree. -/
theorem algebraic : Cert.algebraic_KernelIdeal_ReferenceIdeal := by
  intro m ρ m' ρ' _ hagree
  refine ⟨fun c => Cert.Lstm.Kernel.specO m c, fun c => Cert.Lstm.Kernel.specH m c, fun c => Cert.Lstm.Kernel.specC m c,
    Cert.Lstm.Kernel.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v32_eq, Cert.Lstm.Ref.result_o,
      (hagree c).1, (hagree c).2.1, (hagree c).2.2.2.1, (hagree c).2.2.2.2.1, (hagree c).2.2.2.2.2]
  · rw [(h c).2.1, Cert.ReferenceIdeal.Read.val_main_v37_eq, Cert.Lstm.Ref.result_h,
      (hagree c).1, (hagree c).2.1, (hagree c).2.2.1, (hagree c).2.2.2.1, (hagree c).2.2.2.2.1, (hagree c).2.2.2.2.2]
  · rw [(h c).2.2.1, Cert.ReferenceIdeal.Read.val_main_v35_eq, Cert.Lstm.Ref.result_c,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
